-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S128x128 : Shape := ⟨2, ![128, 128]⟩
abbrev S800000 : Shape := ⟨1, ![800000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S50000x128 .f32) (main_arg1 : FVec F S128x128 .f32) (main_arg2 : IVec S800000 32) (main_arg3 : IVec S800000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  main_v8
-- ==== Kernel.lean ====
abbrev S50000x128 : Shape := ⟨2, ![50000, 128]⟩
abbrev S128x128 : Shape := ⟨2, ![128, 128]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S5000x128 : Shape := ⟨2, ![5000, 128]⟩

abbrev nBuf : Space → Nat
  | .hbm => 18
  | .vmem => 7
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S800000, .i32⟩
  | .hbm, ⟨3, _⟩ => ⟨S800000, .i32⟩
  | .hbm, ⟨4, _⟩ => ⟨S_, .i32⟩
  | .hbm, ⟨5, _⟩ => ⟨S800000, .i32⟩
  | .hbm, ⟨6, _⟩ => ⟨S800000, .i1⟩
  | .hbm, ⟨7, _⟩ => ⟨S_, .i32⟩
  | .hbm, ⟨8, _⟩ => ⟨S800000, .i32⟩
  | .hbm, ⟨9, _⟩ => ⟨S800000, .i32⟩
  | .hbm, ⟨10, _⟩ => ⟨S800000, .i32⟩
  | .hbm, ⟨11, _⟩ => ⟨S800000x1, .i32⟩
  | .hbm, ⟨12, _⟩ => ⟨S800000x128, .f32⟩
  | .hbm, ⟨13, _⟩ => ⟨S_, .f32⟩
  | .hbm, ⟨14, _⟩ => ⟨S50000x128, .f32⟩
  | .hbm, ⟨15, _⟩ => ⟨S800000x1, .i32⟩
  | .hbm, ⟨16, _⟩ => ⟨S50000x128, .f32⟩
  | .hbm, ⟨17, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S5000x128, .f32⟩
  | .local _ .vmem, ⟨6, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v9) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S50000x128 : Shape := ⟨2, ![50000, 128]⟩
abbrev S128x128 : Shape := ⟨2, ![128, 128]⟩
abbrev S800000 : Shape := ⟨1, ![800000]⟩
abbrev S_ : Shape := ⟨0, ![]⟩
abbrev S800000x1 : Shape := ⟨2, ![800000, 1]⟩
abbrev S800000x128 : Shape := ⟨2, ![800000, 128]⟩

abbrev nBuf : Space → Nat
  | .hbm => 23
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S800000, .i32⟩
  | .hbm, ⟨3, _⟩ => ⟨S800000, .i32⟩
  | .hbm, ⟨4, _⟩ => ⟨S_, .i32⟩
  | .hbm, ⟨5, _⟩ => ⟨S800000, .i32⟩
  | .hbm, ⟨6, _⟩ => ⟨S800000, .i1⟩
  | .hbm, ⟨7, _⟩ => ⟨S_, .i32⟩
  | .hbm, ⟨8, _⟩ => ⟨S800000, .i32⟩
  | .hbm, ⟨9, _⟩ => ⟨S800000, .i32⟩
  | .hbm, ⟨10, _⟩ => ⟨S800000, .i32⟩
  | .hbm, ⟨11, _⟩ => ⟨S800000x1, .i32⟩
  | .hbm, ⟨12, _⟩ => ⟨S800000x128, .f32⟩
  | .hbm, ⟨13, _⟩ => ⟨S_, .f32⟩
  | .hbm, ⟨14, _⟩ => ⟨S50000x128, .f32⟩
  | .hbm, ⟨15, _⟩ => ⟨S800000x1, .i32⟩
  | .hbm, ⟨16, _⟩ => ⟨S50000x128, .f32⟩
  | .hbm, ⟨17, _⟩ => ⟨S128x128, .f32⟩
  | .hbm, ⟨18, _⟩ => ⟨S50000x128, .f32⟩
  | .hbm, ⟨19, _⟩ => ⟨S_, .f32⟩
  | .hbm, ⟨20, _⟩ => ⟨S50000x128, .f32⟩
  | .hbm, ⟨21, _⟩ => ⟨S50000x128, .f32⟩
  | .hbm, ⟨22, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_call0_cst : Ref sig .tc := ⟨.hbm, 19, rfl⟩
abbrev main_call0_v0 : Ref sig .tc := ⟨.hbm, 20, rfl⟩
abbrev main_v12 : Ref sig .tc := ⟨.hbm, 21, rfl⟩
abbrev main_v13 : Ref sig .tc := ⟨.hbm, 22, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  transposes_S128x128_S128x128_1_0 : S128x128.Transposes [1, 0] S128x128
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.Layer.lean ====
/-
  The graph-convolution layer as ONE function of its arrays, over the extended reals.

  With `agg` the per-node sum of the incoming neighbours' feature rows, `x` the nodes' own features and `W` the
  weight of the linear map (stored out × in), the layer's output at node `n`, feature `j` is

      max (∑ k, agg[n, k] · W[j, k]) 0 + x[n, j]

  — the linear map without bias, the rectifier, the residual. Entry (n, j) depends on row `n` of `agg`, row `j` of
  `W` and the one entry `x[n, j]`, so the same formula read over a tile of consecutive nodes is the restriction of the
  whole-array function to that tile's rows (`tile_eq_nodes`). No algebraic law is involved: both programs form the
  same products in the same sum, so nothing here needs the inputs to be finite.
-/
import Idealize.ShloMosaic.PureOps.Ideal
import Idealize.ShloMosaic.Lib.ValueIdx

noncomputable section

open scoped BigOperators

namespace Cert.Layer

open Idealize.ShloMosaic Idealize.ShloMosaic.ValueIdx

/-- All nodes × features. -/
abbrev Nodes : Shape := ⟨2, ![50000, 128]⟩
/-- A tile of 5000 consecutive nodes × features. -/
abbrev Tile : Shape := ⟨2, ![5000, 128]⟩
/-- The weight, out-features × in-features. -/
abbrev Weight : Shape := ⟨2, ![128, 128]⟩

/-- One output feature of one node: the node's aggregated row against one row of the weight, clamped below at zero,
    plus the node's own feature. -/
def feature (aggRow wRow : Fin 128 → EReal) (self : EReal) : EReal :=
  max (∑ k : Fin 128, aggRow k * wRow k) 0 + self

/-- The layer over all 50000 nodes. -/
def nodes (agg x : Nodes.Idx → EReal) (W : Weight.Idx → EReal) : Nodes.Idx → EReal :=
  fun i => feature (fun k => agg (ix2 (n0 := 50000) (n1 := 128) (i 0) k))
    (fun k => W (ix2 (n0 := 128) (n1 := 128) (i 1) k)) (x i)

/-- The same formula over a tile of 5000 nodes. -/
def tile (a xb : Tile.Idx → EReal) (W : Weight.Idx → EReal) : Tile.Idx → EReal :=
  fun y => feature (fun k => a (ix2 (n0 := 5000) (n1 := 128) (y 0) k))
    (fun k => W (ix2 (n0 := 128) (n1 := 128) (y 1) k)) (xb y)

/-- The layer at node `n`, feature `j`, by coordinates. -/
theorem nodes_ix2 (agg x : Nodes.Idx → EReal) (W : Weight.Idx → EReal) (n : Fin 50000) (j : Fin 128) :
    nodes agg x W (ix2 n j) = feature (fun k => agg (ix2 n k)) (fun k => W (ix2 j k)) (x (ix2 n j)) := rfl

/-- The tile's formula at local node `r`, feature `j`, by coordinates. -/
theorem tile_ix2 (a xb : Tile.Idx → EReal) (W : Weight.Idx → EReal) (r : Fin 5000) (j : Fin 128) :
    tile a xb W (ix2 r j) = feature (fun k => a (ix2 r k)) (fun k => W (ix2 j k)) (xb (ix2 r j)) := rfl

/-- A tile entry is the whole layer's entry at node `n`, feature `j` as soon as the tile's aggregated row is row `n`
    of `agg`, the weight row it meets is row `j` of `W`, and its own feature is `x[n, j]`. -/
theorem tile_eq_nodes (agg x : Nodes.Idx → EReal) (W : Weight.Idx → EReal) (a xb : Tile.Idx → EReal)
    (Wb : Weight.Idx → EReal) (r : Fin 5000) (j j' : Fin 128) (n : Fin 50000)
    (ha : ∀ k : Fin 128, a (ix2 r k) = agg (ix2 n k))
    (hw : ∀ k : Fin 128, Wb (ix2 j k) = W (ix2 j' k))
    (hx : xb (ix2 r j) = x (ix2 n j')) :
    tile a xb Wb (ix2 r j) = nodes agg x W (ix2 n j') := by
  rw [tile_ix2, nodes_ix2, hx, funext ha, funext hw]

end Cert.Layer

end
-- ==== Proof.Payload.lean ====
/-
  The kernel body's one stored value, read at an entry of its tile.

  The body loads a tile of the aggregated array, the whole weight and the matching tile of the node features, and
  stores  max (a · Wᵀ) 0 + x  over the tile. At the extended reals the two narrowings to a 16-bit float are the
  identity, the shape cast of a tile to its own shape is the identity, the transposed weight at (k, j) is the weight at
  (j, k), and the matrix product into a zero accumulator at (r, j) is the sum over the one contracted axis of
  a[r, k] · Wᵀ[k, j]. So the stored value at (r, j) is the layer's formula over the tile (`Layer.tile`).
-/
import proofs.«116173_j23106924052860_1_alg».proof.Proof.Gen.KernelIdeal.Skeleton
import proofs.«116173_j23106924052860_1_alg».proof.Proof.Layer
import Idealize.ShloMosaic.Lib.Pipeline.Value
import Idealize.ShloMosaic.Lib.ValueIdx
import Idealize.ShloMosaic.PureOps.Ideal.Laws

noncomputable section

open scoped BigOperators

namespace Cert.KernelIdeal.Body

open Cert.KernelIdeal Cert.KernelIdeal.Gen Idealize.ShloMosaic Idealize.ShloMosaic.ValueIdx

/-! ## The product's operand indices, axis by axis -/

/-- The left operand is read on the output's row. -/
theorem lhs_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- Its column is the contraction coordinate. -/
theorem lhs_contr (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- The right operand's row is the contraction coordinate. -/
theorem rhs_contr (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- Its column is the output's column. -/
theorem rhs_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-! ## The matrix product at an entry -/

/-- A tile times a 128 × 128 matrix into the zero accumulator, at (r, j): the sum over k of l[r, k] · m[k, j]. -/
theorem matmul_at (l : FVec Ideal S5000x128 .bf16) (mt : FVec Ideal S128x128 .bf16) (r : Fin 5000) (j : Fin 128) :
    matmul (F := Ideal) dot_S5000x128_S128x128_S5000x128_1_0_0_1_n_n none l mt (constant S5000x128 .f32 0x00000000#32) (ix2 r j)
      = ∑ k : Fin 128, l (ix2 r k) * mt (ix2 k j) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 r j) ((contrEquiv1 dot_S5000x128_S128x128_S5000x128_1_0_0_1_n_n 128 rfl rfl).symm k) = ix2 r k := funext fun a => Fin.ext (by
    match a with
    | ⟨0, _⟩ => exact lhs_row _ _
    | ⟨1, _⟩ => exact (lhs_contr _ _).trans hk)
  have er : dot_S5000x128_S128x128_S5000x128_1_0_0_1_n_n.rhsIdx (ix2 r j) ((contrEquiv1 dot_S5000x128_S128x128_S5000x128_1_0_0_1_n_n 128 rfl rfl).symm k) = ix2 k j := funext fun a => Fin.ext (by
    match a with
    | ⟨0, _⟩ => exact (rhs_contr _ _).trans hk
    | ⟨1, _⟩ => exact rhs_col _ _)
  rw [el, er]

/-- The transposed weight at (k, j) is the weight at (j, k). -/
theorem transpose_at (w : FVec Ideal S128x128 .bf16) (k j : Fin 128) :
    transpose S128x128 [1, 0] w transposes_S128x128_p1_0_S128x128 (ix2 k j) = w (ix2 j k) :=
  transpose_apply [1, 0] w transposes_S128x128_p1_0_S128x128 (ix2 k j) (ix2 j k) (fun b => match b with
    | ⟨0, _⟩ => rfl
    | ⟨1, _⟩ => rfl)

/-! ## The stored value -/

/-- The body's stored value at local node `r`, feature `j`. -/
theorem payload_at (a : Vec Ideal S5000x128 .f32) (Wb : Vec Ideal S128x128 .f32) (xb : Vec Ideal S5000x128 .f32)
    (r : Fin 5000) (j : Fin 128) :
    k0_pay1 (F := Ideal) a Wb xb (ix2 r j)
      = Layer.feature (fun k => a (ix2 r k)) (fun k => Wb (ix2 j k)) (xb (ix2 r j)) := by
  unfold k0_pay1 Layer.feature
  show max (matmul (F := Ideal) dot_S5000x128_S128x128_S5000x128_1_0_0_1_n_n none
        (truncf .bf16 (shapeCast S5000x128 a shapeCasts_S5000x128_S5000x128) bitsLt_bf16_f32)
        (transpose S128x128 [1, 0] (truncf .bf16 Wb bitsLt_bf16_f32) transposes_S128x128_p1_0_S128x128)
        (constant S5000x128 .f32 0x00000000#32) (ix2 r j)) (Ideal.ofBits .f32 0x00000000#32) + xb (ix2 r j)
      = max (∑ k : Fin 128, a (ix2 r k) * Wb (ix2 j k)) 0 + xb (ix2 r j)
  rw [matmul_at, Ideal.ofBits_zero_f32]
  refine congrArg (fun s => max s 0 + xb (ix2 r j)) (Finset.sum_congr rfl fun k _ => ?_)
  rw [transpose_at]
  exact congrArg (· * Wb (ix2 j k)) (congrFun (shapeCast_self a shapeCasts_S5000x128_S5000x128) (ix2 r k))

/-- So the stored tile is the layer's formula over the tile's three loaded blocks. -/
theorem payload_eq (a : Vec Ideal S5000x128 .f32) (Wb : Vec Ideal S128x128 .f32) (xb : Vec Ideal S5000x128 .f32) :
    k0_pay1 (F := Ideal) a Wb xb = Layer.tile a xb Wb := by
  funext y
  obtain ⟨r, j, rfl⟩ : ∃ (r : Fin 5000) (j : Fin 128), y = ix2 r j := ⟨y 0, y 1, eq_ix2 y⟩
  rw [Layer.tile_ix2]
  exact payload_at a Wb xb r j

end Cert.KernelIdeal.Body

end
-- ==== Proof.Tiles.lean ====
/-
  From the kernel's tiles to its whole result array.

  The grid has ten points. At point `t` the pipeline stages rows 5000·t … 5000·t + 4999 of the aggregated array and of
  the node features, the whole weight, and writes the body's tile back to the same rows of the result. Since entry
  (n, j) of the layer depends only on row `n` of the aggregated array, row `j` of the weight and entry (n, j) of the
  features, what point `t` writes back is the layer's whole-array function read through the point's block
  (`flushed_eq`); the ten blocks tile the 50000 rows (row `n` lies in block `n / 5000`), so after the run the
  result array IS that function (`final`).
-/
import proofs.«116173_j23106924052860_1_alg».proof.Proof.Gen.KernelIdeal.Value
import proofs.«116173_j23106924052860_1_alg».proof.Proof.Payload
import proofs.«116173_j23106924052860_1_alg».proof.Proof.Layer
import Idealize.ShloMosaic.Lib.Pipeline.Value
import Idealize.ShloMosaic.Lib.ValueIdx

noncomputable section

namespace Cert.KernelIdeal.Tiles

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The body's accesses start at the origin of their buffers. -/
theorem origin : (![0, 0] : Fin 2 → Nat) = fun _ => 0 := funext fun a => by fin_cases a <;> rfl

/-- Where each window's block sits at grid point `t`: the three row-tiled windows on block row `t`, the weight's one
    block at the origin (the printed index maps, decided over the ten points). -/
theorem block_indices : ∀ t : Fin cfg0.N,
      win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The node that local node `r` of tile `t` is. -/
def node (t : Fin cfg0.N) (r : Fin 5000) : Fin 50000 :=
  ⟨t.val * 5000 + r.val, by have ht : t.val < 10 := t.isLt; have hr := r.isLt; omega⟩

/-! ## Each block's entries inside its array -/

/-- Entry (r, k) of the aggregated array's block at `t` is entry (node t r, k) of the array. -/
theorem emb_agg (t : Fin cfg0.N) (r : Fin 5000) (k : Fin 128) :
    ((cfg0.win 0).blk t).view.emb (ix2 r k) = ix2 (node t r) k := by
  obtain ⟨e0, e1, -⟩ := block_indices t
  funext a; apply Fin.ext
  match a with
  | ⟨0, _⟩ => show win0_0.index t (0 : Fin 2) * 5000 + 1 * r.val = t.val * 5000 + r.val; omega
  | ⟨1, _⟩ => show win0_0.index t (1 : Fin 2) * 128 + 1 * k.val = k.val; omega

/-- The same for the node features' block. -/
theorem emb_self (t : Fin cfg0.N) (r : Fin 5000) (j : Fin 128) :
    ((cfg0.win 1).blk t).view.emb (ix2 r j) = ix2 (node t r) j := by
  obtain ⟨-, -, e0, e1, -⟩ := block_indices t
  funext a; apply Fin.ext
  match a with
  | ⟨0, _⟩ => show win0_1.index t (0 : Fin 2) * 5000 + 1 * r.val = t.val * 5000 + r.val; omega
  | ⟨1, _⟩ => show win0_1.index t (1 : Fin 2) * 128 + 1 * j.val = j.val; omega

/-- The weight's one block is the whole weight. -/
theorem emb_weight (t : Fin cfg0.N) (j k : Fin 128) :
    ((cfg0.win 2).blk t).view.emb (ix2 j k) = ix2 j k := by
  obtain ⟨-, -, -, -, e0, e1, -⟩ := block_indices t
  funext a; apply Fin.ext
  match a with
  | ⟨0, _⟩ => show win0_2.index t (0 : Fin 2) * 128 + 1 * j.val = j.val; omega
  | ⟨1, _⟩ => show win0_2.index t (1 : Fin 2) * 128 + 1 * k.val = k.val; omega

/-- And the result's block at `t` holds the same rows as the two row-tiled inputs'. -/
theorem emb_out (t : Fin cfg0.N) (r : Fin 5000) (j : Fin 128) :
    ((cfg0.win 3).blk t).view.emb (ix2 r j) = ix2 (node t r) j := by
  obtain ⟨-, -, -, -, -, -, e0, e1⟩ := block_indices t
  funext a; apply Fin.ext
  match a with
  | ⟨0, _⟩ => show win0_3.index t (0 : Fin 2) * 5000 + 1 * r.val = t.val * 5000 + r.val; omega
  | ⟨1, _⟩ => show win0_3.index t (1 : Fin 2) * 128 + 1 * j.val = j.val; omega

/-! ## What a point writes back -/

/-- The body's result for the output window: its one store covers the whole staging buffer and its three loads read
    whole buffers, so the buffer is left at the layer's formula over the three loaded blocks. -/
theorem out_eq (x0 x1 : Vec Ideal S5000x128 .f32) (x2 : Vec Ideal S128x128 .f32) :
    out0_3 x0 x1 x2 = Layer.tile x0 x1 x2 := by
  unfold out0_3
  rw [View.canon_unit_zero origin]
  simp only [View.ld_unit_zero (S := S5000x128) origin, View.ld_unit_zero (S := S128x128) origin]
  exact Body.payload_eq x0 x2 x1

/-- The output window is not cut at the array's end: what is written back at (r, j) is the buffer's entry (r, j). -/
theorem cut_at {α : Type} (t : Fin cfg0.N) (X : S5000x128.Idx → α) (r : Fin 5000) (j : Fin 128) :
    (cfg0.win 3).cut (grid0.coords t) X (ix2 r j) = X (ix2 r j) := rfl

/-- An array read through the output window's block at `t`, at (r, j), is the array at that entry's place in it; -/
theorem read_at (t : Fin cfg0.N) (G : S50000x128.Idx → Elt Ideal .f32) (r : Fin 5000) (j : Fin 128) :
    ((cfg0.win 3).blk t).view.read (Elt Ideal) G (ix2 r j) = G (((cfg0.win 3).blk t).view.emb (ix2 r j)) := rfl

/-- the same through the aggregated array's window, -/
theorem read_agg (t : Fin cfg0.N) (A : S50000x128.Idx → Elt Ideal .f32) (r : Fin 5000) (k : Fin 128) :
    ((cfg0.win 0).blk t).view.read (Elt Ideal) A (ix2 r k) = A (((cfg0.win 0).blk t).view.emb (ix2 r k)) := rfl

/-- the node features' window, -/
theorem read_self (t : Fin cfg0.N) (A : S50000x128.Idx → Elt Ideal .f32) (r : Fin 5000) (j : Fin 128) :
    ((cfg0.win 1).blk t).view.read (Elt Ideal) A (ix2 r j) = A (((cfg0.win 1).blk t).view.emb (ix2 r j)) := rfl

/-- and the weight's. -/
theorem read_weight (t : Fin cfg0.N) (A : S128x128.Idx → Elt Ideal .f32) (j k : Fin 128) :
    ((cfg0.win 2).blk t).view.read (Elt Ideal) A (ix2 j k) = A (((cfg0.win 2).blk t).view.emb (ix2 j k)) := rfl

/-- Point `t` writes back block `t` of the layer's function of the arrays as the region finds them. -/
theorem flushed_eq (c : Dev nD) (t : Fin cfg0.N) :
    (dats m 0 c).flushed 3 t = ((cfg0.win 3).blk t).view.read (Elt Ideal)
      (Layer.nodes (V m c main_v9) (V m c main_arg0) (V m c main_arg1)) := by
  rw [Value.flushed3]
  funext y
  obtain ⟨r, j, rfl⟩ : ∃ (r : Fin 5000) (j : Fin 128), y = ix2 r j := ⟨y 0, y 1, eq_ix2 y⟩
  rw [cut_at, read_at, emb_out]
  refine (congrFun (out_eq (iblk m c 0 t) (iblk m c 1 t) (iblk m c 2 t)) (ix2 r j)).trans ?_
  refine Layer.tile_eq_nodes (V m c main_v9) (V m c main_arg0) (V m c main_arg1)
    (iblk m c 0 t) (iblk m c 1 t) (iblk m c 2 t) r j j (node t r) (fun k => ?_) (fun k => ?_) ?_
  · unfold iblk
    rw [read_agg, emb_agg]
  · unfold iblk
    rw [read_weight, emb_weight]
  · unfold iblk
    rw [read_self, emb_self]

/-! ## The blocks tile the rows -/

/-- An entry of the result array lies in point `t`'s block iff each coordinate lies in the block's range. -/
theorem mem_tile (t : Fin cfg0.N) (i : S50000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v10).slice (win0_3.rect t)).set ↔ _
  rw [View.set_slice_whole, Rect.mem_set_unit]
  exact Iff.rfl

/-- Row `n` lies in block `n / 5000`. -/
theorem covered (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  have hlt : (i 0).val / 5000 < cfg0.N := by show _ < 10; omega
  obtain ⟨-, -, -, -, -, -, e0, e1⟩ := block_indices ⟨(i 0).val / 5000, hlt⟩
  refine ⟨⟨(i 0).val / 5000, hlt⟩, flush0_3 _, ?_⟩
  rw [mem_tile]
  intro a
  match a with
  | ⟨0, _⟩ =>
    show win0_3.index ⟨(i 0).val / 5000, hlt⟩ (0 : Fin 2) * 5000 ≤ (i 0).val
      ∧ (i 0).val < win0_3.index ⟨(i 0).val / 5000, hlt⟩ (0 : Fin 2) * 5000 + 5000
    rw [e0]; show (i 0).val / 5000 * 5000 ≤ (i 0).val ∧ (i 0).val < (i 0).val / 5000 * 5000 + 5000; omega
  | ⟨1, _⟩ =>
    show win0_3.index ⟨(i 0).val / 5000, hlt⟩ (1 : Fin 2) * 128 ≤ (i 1).val
      ∧ (i 1).val < win0_3.index ⟨(i 0).val / 5000, hlt⟩ (1 : Fin 2) * 128 + 128
    rw [e1]; omega

/-! ## The result array, and the run -/

/-- After the run the result array is the layer's function of the aggregated array, the node features and the
    weight, as the region finds them. -/
theorem final (c : Dev nD) :
    (dats m 0 c).arrAt 3 cfg0.N = Layer.nodes (V m c main_v9) (V m c main_arg0) (V m c main_arg1) :=
  (dats m 0 c).arrAt_eq_of_cover 3 _ (fun t _ => flushed_eq m c t) covered

end Cert.KernelIdeal.Tiles

end
-- ==== Proof.Aggregate.lean ====
/-
  The aggregated array the kernel's region finds.

  Before its one region the kernel's @main wraps negative source indices (adds 50000 where the index is below zero),
  gathers the source rows, and scatter-adds them into a zero array by destination: the neighbour sum. The region's
  first window stages that array. Its contents are the thirteen host operations' composed term of the argument arrays
  (`aggregated`); the reference's @main begins with the same thirteen operations, literal by literal, so its stage for
  the scatter's result is the same term (`aggregated_eq_reference`), for every float instance.
-/
import proofs.«116173_j23106924052860_1_alg».proof.Proof.Gen.KernelIdeal.Frame
import proofs.«116173_j23106924052860_1_alg».proof.Proof.Gen.ReferenceIdeal.Read
import Idealize.ShloMosaic.Lib.StableHlo.Run

noncomputable section

namespace Cert.KernelIdeal.Aggregate

open Cert.KernelIdeal Cert.KernelIdeal.Gen Idealize.ShloMosaic Idealize.ShloMosaic.TcCoe Idealize.SL.Sem
open Idealize.ShloMosaic.StableHlo

variable {F : FTy → Type} [FloatOps F]

/-- The neighbour sum as the kernel's host operations compute it: node features `x`, edge sources `src`, edge
    destinations `dst`. -/
def aggregated (x : (⟨S50000x128, .f32⟩ : BufTy).Contents (Elt F)) (src dst : (⟨S800000, .i32⟩ : BufTy).Contents (Elt F)) :
    (⟨S50000x128, .f32⟩ : BufTy).Contents (Elt F) :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 dst)
    (Host.gather gather_S50000x128_S800000x1_S800000x128_1_0_n_n_0_1_1128 x
      (broadcastInDim S800000x1 ![0] bcast_S800000_S800000x1_0
        (select (cmpi .slt src (broadcastInDim S800000 ![] bcast_S_S800000 (constantI S_ 32 0#32)))
          (addi src (broadcastInDim S800000 ![] bcast_S_S800000 (constantI S_ 32 50000#32))) src)))

/-- The region finds the scatter's result buffer at the neighbour sum of the argument arrays. -/
theorem V_main_v9 (m : (ℓ : Loc nD τ sig) → Buf (Elt F) ℓ) (c : Dev nD) :
    (V m c main_v9 : (⟨S50000x128, .f32⟩ : BufTy).Contents (Elt F))
      = aggregated (m ((c : Thread nD τ).loc main_arg0)) (m ((c : Thread nD τ).loc main_arg2)) (m ((c : Thread nD τ).loc main_arg3)) := by
  dsimp only [V, hostOps0]
  after_results
  rfl

/-- The reference's stage for its scatter's result is the same term: its @main begins with the same thirteen
    operations over the same literals. -/
theorem aggregated_eq_reference (x : (⟨S50000x128, .f32⟩ : BufTy).Contents (Elt F)) (src dst : (⟨S800000, .i32⟩ : BufTy).Contents (Elt F)) :
    aggregated x src dst = Cert.ReferenceIdeal.Read.val_main_v9 (F := F) x src dst := rfl

end Cert.KernelIdeal.Aggregate

end
-- ==== Proof.KernelRun.lean ====
/-
  The idealized kernel's run, with its result named.

  The frame run leaves the result buffer at the array the ten write-backs build, which is the layer's function of the
  arrays the region finds (`Tiles.final`). The region finds the aggregated array at the neighbour sum of the argument
  arrays (`Aggregate.V_main_v9`) and the node features and the weight as launched, since no host operation writes them.
  So the result is the layer of (neighbour sum, features, weight), all three functions of the arguments alone.
-/
import proofs.«116173_j23106924052860_1_alg».proof.Proof.Tiles
import proofs.«116173_j23106924052860_1_alg».proof.Proof.Aggregate

noncomputable section

namespace Cert.KernelIdeal.Tiles

open Cert.KernelIdeal Cert.KernelIdeal.Gen Idealize.ShloMosaic Idealize.ShloMosaic.TcCoe Idealize.SL.Sem

/-- The kernel's result as a function of its argument arrays on core `c`. -/
def result (m : (ℓ : Loc nD τ sig) → Buf (Elt Ideal) ℓ) (c : Dev nD) : Layer.Nodes.Idx → EReal :=
  Layer.nodes
    (Aggregate.aggregated (m ((c : Thread nD τ).loc main_arg0)) (m ((c : Thread nD τ).loc main_arg2)) (m ((c : Thread nD τ).loc main_arg3)))
    (m ((c : Thread nD τ).loc main_arg0)) (m ((c : Thread nD τ).loc main_arg1))

/-- The array the write-backs build is that function of the arguments. -/
theorem final_args (m : (ℓ : Loc nD τ sig) → Buf (Elt Ideal) ℓ) (c : Dev nD) :
    (dats m 0 c).arrAt 3 cfg0.N = result m c := by
  rw [final, Aggregate.V_main_v9, V_main_arg0, V_main_arg1]
  rfl

/-- Every weakly fair execution of the idealized kernel ends with the result buffer at `result` and the arguments
    unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v10) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final_args m c), (h c).2⟩) (Value.run_blocks m ρ)

end Cert.KernelIdeal.Tiles

end
-- ==== Proof.Reference.lean ====
/-
  The reference's result is the layer's function of ITS aggregated array.

  After its scatter-add the reference transposes the weight, multiplies (one contracted axis), takes the maximum with
  a broadcast zero and adds the node features. Read at node `n`, feature `j` through the stages' index lemmas: the
  product is ∑ k, agg[n, k] · Wᵀ[k, j], and the transposed weight at (k, j) is the weight at (j, k); so the result is
  `Layer.nodes` of the reference's own aggregated array (stage `val_main_v9`), the features and the weight.
-/
import proofs.«116173_j23106924052860_1_alg».proof.Proof.Gen.ReferenceIdeal.Read
import proofs.«116173_j23106924052860_1_alg».proof.Proof.Layer
import Idealize.ShloMosaic.Lib.ValueIdx
import Idealize.ShloMosaic.PureOps.Ideal.Laws

noncomputable section

open scoped BigOperators

namespace Cert.ReferenceIdeal.Layerwise

open Cert.ReferenceIdeal Cert.ReferenceIdeal.Gen Cert.ReferenceIdeal.Read Idealize.ShloMosaic Idealize.ShloMosaic.ValueIdx

/-- The left operand of the product at output (n, j), contraction coordinate k, is entry (n, k). -/
theorem lidx_eq (n : Fin 50000) (j k : Fin 128) : lidx_main_v11 (ix2 n j) k = ix2 n k :=
  funext fun a => match a with | ⟨0, _⟩ => rfl | ⟨1, _⟩ => rfl

/-- The right operand is the TRANSPOSED weight at (k, j), which is the weight at (j, k). -/
theorem ridx_eq (n : Fin 50000) (j k : Fin 128) : idx_main_v10 (ridx_main_v11 (ix2 n j) k) = ix2 j k :=
  funext fun a => match a with | ⟨0, _⟩ => rfl | ⟨1, _⟩ => rfl

/-- The reference's last stage is the layer over its aggregated array. -/
theorem result_eq (x0 : (⟨S50000x128, .f32⟩ : BufTy).Contents (Elt Ideal)) (x1 : (⟨S128x128, .f32⟩ : BufTy).Contents (Elt Ideal))
    (x2 x3 : (⟨S800000, .i32⟩ : BufTy).Contents (Elt Ideal)) :
    val_main_v13 (F := Ideal) x0 x1 x2 x3 = Layer.nodes (val_main_v9 (F := Ideal) x0 x2 x3) x0 x1 := by
  funext i
  obtain ⟨n, j, rfl⟩ : ∃ (n : Fin 50000) (j : Fin 128), i = ix2 n j := ⟨i 0, i 1, eq_ix2 i⟩
  rw [Layer.nodes_ix2, val_main_v13_apply, val_main_v12_apply, val_main_v11_apply, val_main_call0_v0_apply,
    val_main_call0_cst_apply]
  unfold Layer.feature
  show max (∑ k : Fin 128, val_main_v9 (F := Ideal) x0 x2 x3 (lidx_main_v11 (ix2 n j) k)
        * val_main_v10 (F := Ideal) x1 (ridx_main_v11 (ix2 n j) k)) (Ideal.ofBits .f32 0x00000000#32) + x0 (ix2 n j)
      = max (∑ k : Fin 128, val_main_v9 (F := Ideal) x0 x2 x3 (ix2 n k) * x1 (ix2 j k)) 0 + x0 (ix2 n j)
  rw [Ideal.ofBits_zero_f32]
  refine congrArg (fun s => max s 0 + x0 (ix2 n j)) (Finset.sum_congr rfl fun k _ => ?_)
  rw [val_main_v10_apply, lidx_eq, ridx_eq]

end Cert.ReferenceIdeal.Layerwise

end
-- ==== Proof.lean ====
/-
  A graph-convolution layer — neighbour sum, linear map without bias, rectifier, residual — as a tiled kernel
  against its plain reference, over the extended reals.

  Both programs begin with the same host operations: negative source indices are wrapped, the source rows are
  gathered, and they are scatter-added into a zero array by destination (`Aggregate.aggregated`). The kernel then
  computes  max (agg · Wᵀ) 0 + x  tile by tile over ten tiles of 5000 nodes, narrowing both factors of the product to a
  16-bit float first; the reference computes the same expression on the whole arrays without narrowing. At the
  extended reals the narrowing is the identity and both products are the same sum  ∑ k, agg[n, k] · W[j, k]  of the
  same terms in the same order, so the two results are ONE function of the arguments (`Layer.nodes`): the kernel's by
  reading its tiles back into the array (`Tiles.run`), the reference's by reading its stages at an index
  (`Layerwise.result_eq`). No law of arithmetic beyond that is used, so finiteness of the inputs is never needed.
  The idealization rewrote no operation, so there is nothing to preserve.
-/
import proofs.«116173_j23106924052860_1_alg».proof.Defs
import proofs.«116173_j23106924052860_1_alg».proof.Proof.Gen.Kernel
import proofs.«116173_j23106924052860_1_alg».proof.Proof.Gen.Kernel.Skeleton
import proofs.«116173_j23106924052860_1_alg».proof.Proof.Gen.Kernel.Launch
import proofs.«116173_j23106924052860_1_alg».proof.Proof.Gen.Kernel.Points
import proofs.«116173_j23106924052860_1_alg».proof.Proof.Gen.Kernel.Frame
import proofs.«116173_j23106924052860_1_alg».proof.Proof.Gen.KernelIdeal
import proofs.«116173_j23106924052860_1_alg».proof.Proof.Gen.KernelIdeal.Skeleton
import proofs.«116173_j23106924052860_1_alg».proof.Proof.Gen.KernelIdeal.Launch
import proofs.«116173_j23106924052860_1_alg».proof.Proof.Gen.KernelIdeal.Points
import proofs.«116173_j23106924052860_1_alg».proof.Proof.Gen.KernelIdeal.Frame
import proofs.«116173_j23106924052860_1_alg».proof.Proof.Gen.KernelIdeal.Value
import proofs.«116173_j23106924052860_1_alg».proof.Proof.Gen.ReferenceIdeal
import proofs.«116173_j23106924052860_1_alg».proof.Proof.Gen.ReferenceIdeal.Run
import proofs.«116173_j23106924052860_1_alg».proof.Proof.Gen.ReferenceIdeal.Read
import proofs.«116173_j23106924052860_1_alg».proof.Proof.Gen.Pre_finite_inputs
import proofs.«116173_j23106924052860_1_alg».proof.Proof.KernelRun
import proofs.«116173_j23106924052860_1_alg».proof.Proof.Reference
import Idealize.ShloMosaic.Adequacy
import Idealize.ShloMosaic.Init

noncomputable section

namespace Cert.Proof

open Idealize.ShloMosaic Idealize.SL.Sem

/-- The kernel as printed runs, nothing faulting, its arguments unchanged. -/
theorem frame_kernel : Cert.frame_Kernel := fun m ρ _ => Cert.Kernel.Gen.frame m ρ

/-- So does its reading at the extended reals. -/
theorem frame_kernel_ideal : Cert.frame_KernelIdeal := fun m ρ _ => Cert.KernelIdeal.Gen.frame m ρ

/-- The reference has no kernel: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the arguments both programs end with the layer's function of the arguments: the
    kernel by its tiles, the reference by its stages, the neighbour sum the same term on both sides. -/
theorem algebraic : Cert.algebraic_KernelIdeal_ReferenceIdeal := by
  intro m ρ m' ρ' _ hagree
  refine ⟨fun c => Cert.KernelIdeal.Tiles.result m c, Cert.KernelIdeal.Tiles.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, Cert.ReferenceIdeal.Layerwise.result_eq,
    (hagree c).1, (hagree c).2.1, (hagree c).2.2.1, (hagree c).2.2.2,
    ← Cert.KernelIdeal.Aggregate.aggregated_eq_reference]
  rfl

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
